-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8192x1024 : Shape := ⟨2, ![8192, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S8192x1024, .f32⟩
  | .hbm, ⟨17, _⟩ => ⟨S8192x1024, .f32⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  shapeCasts_S4x2048x1024_S8192x1024 : S4x2048x1024.ShapeCasts S8192x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S1024x1024.size a
  hwx0_4 : ∀ i : grid0.Coords, EltTy.bits .f32 = 32 ∨ (Rect.block (s := S1024x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x1024.size a
  hwx1_5 : ∀ i : grid1.Coords, EltTy.bits .f32 = 32 ∨ (Rect.block (s := S8192x1024) S1024x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1x1024 : Shape := ⟨2, ![1, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024x1, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024x1024, .f32⟩
  | .hbm, ⟨26, _⟩ => ⟨S1x1024, .f32⟩
  | .hbm, ⟨27, _⟩ => ⟨S1024x1024, .f32⟩
  | .hbm, ⟨28, _⟩ => ⟨S1024x1024, .f32⟩
  | .hbm, ⟨29, _⟩ => ⟨S1024x1, .f32⟩
  | .hbm, ⟨30, _⟩ => ⟨S1024x1024, .f32⟩
  | .hbm, ⟨31, _⟩ => ⟨S1024x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S4x2048x1024_S4x2048_d2 : S4x2048x1024.ReducesTo [2] S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S1024_S1x1x1024_2 : S1024.BroadcastsInDim S1x1x1024 (![2] : Fin 1 → Fin S1x1x1024.rank)
  bcast_S4x2048x1_S4x2048x1024_0_1_2 : S4x2048x1.BroadcastsInDim S4x2048x1024 (![0, 1, 2] : Fin 3 → Fin S4x2048x1024.rank)
  bcast_S1x1x1024_S4x2048x1024_0_1_2 : S1x1x1024.BroadcastsInDim S4x2048x1024 (![0, 1, 2] : Fin 3 → Fin S4x2048x1024.rank)
  dot_S1024x1024_S1024x1024_S1024x1024_1_1_0_0_n_n_wf : DotDims.WF S1024x1024 S1024x1024 S1024x1024 [1] [1] [0] [0] [] []
  dot_S4x2048x1024_S1024x1024_S4x2048x1024_2_1_01_0_n_n_wf : DotDims.WF S4x2048x1024 S1024x1024 S4x2048x1024 [2] [1] [0, 1] [0] [] []

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KHost.lean ====
/-
  The kernel program's host operations, read at an entry over the extended reals: what the buffers hold at each region's
  entry and at the return, in terms of the launch memory and of the arrays the two regions leave.

  Before the first region: the scaled projection matrix laid out [d, r] (a broadcast, a product and a transpose; the
  change of float format is the identity), the row of squared scales and the row of amplitudes. Between the regions:
  the first region's result transposed, and `x` with its two leading axes merged. After the second region: its result
  with the leading axis split again. Buffers no operation and no region writes keep their contents.
-/
import proofs.«120105_j17274358465083_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Rfs.KHost

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg)

/-- Row (b, s) of `x` is row 2048 b + s of the merged array. -/
def row (b : Fin 4) (s : Fin 2048) : Fin 8192 := ⟨2048 * b.val + s.val, by have := b.isLt; have := s.isLt; omega⟩

/-- The four argument arrays at launch, as functions of their indices into the extended reals. -/
abbrev argX (c : Dev nD) : S4x2048x1024.Idx → EReal := m ((c : Thread nD τ).loc main_arg0)
abbrev argW (c : Dev nD) : S1024x1024.Idx → EReal := m ((c : Thread nD τ).loc main_arg1)
abbrev argA (c : Dev nD) : S1024.Idx → EReal := m ((c : Thread nD τ).loc main_arg2)
abbrev argP (c : Dev nD) : S1024x1024.Idx → EReal := m ((c : Thread nD τ).loc main_arg3)

/-! ## At the first region's entry -/

theorem V1_arg1 (c : Dev nD) : V1 m ρ c main_arg1 = m ((c : Thread nD τ).loc main_arg1) := by
  show StableHlo.after hostOps0 (W0 m ρ c) (Proc.devRef .tc main_arg1) = _
  refine (StableHlo.after_of_forall_not_mem (b := Proc.devRef .tc main_arg1) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))).trans ?_
  rfl

/-- The scaled projection matrix, laid out [d, r]. -/
theorem V1_v6_apply (c : Dev nD) (d r : Fin 1024) :
    (V1 m ρ c main_v6 : S1024x1024.Idx → EReal) (ix2 d r)
      = argA m c (ix1 r) * argP m c (ix2 r d) := by
  have e : @Eq (S1024x1024.Idx → EReal) (V1 m ρ c main_v6)
      (truncf (F := Ideal) (φ := .f32) .bf16
          (transpose S1024x1024 [1, 0]
            (mulf (F := Ideal) (φ := .f32)
              (broadcastInDim S1024x1024 ![0, 1] bcast_S1024x1_S1024x1024_0_1
                (broadcastInDim S1024x1 ![0] bcast_S1024_S1024x1_0 (argA m c)))
              (argP m c))
            transposes_S1024x1024_S1024x1024_1_0)
          bitsLt_bf16_f32) := by
    show StableHlo.after hostOps0 (W0 m ρ c) (Proc.devRef .tc main_v6) = _
    after_results
  rw [e, truncf_apply, transpose_ix2_apply, mulf_apply]
  rw [broadcastInDim_apply (![0, 1] : Fin 2 → Fin S1024x1024.rank) bcast_S1024x1_S1024x1024_0_1 _ (ix2 r d) (ix2 r (0 : Fin 1))
        (fun a => by
          match a with
          | ⟨0, _⟩ => rfl
          | ⟨1, _⟩ => rfl)]
  rw [broadcastInDim_apply (![0] : Fin 1 → Fin S1024x1.rank) bcast_S1024_S1024x1_0 _ (ix2 r (0 : Fin 1)) (ix1 r)
        (fun a => by
          match a with
          | ⟨0, _⟩ => rfl)]

/-- The row of squared scales. -/
theorem V1_v7_apply (c : Dev nD) (r : Fin 1024) :
    (V1 m ρ c main_v7 : S1x1024.Idx → EReal) (ix2 (0 : Fin 1) r)
      = argA m c (ix1 r) * argA m c (ix1 r) := by
  have e : @Eq (S1x1024.Idx → EReal) (V1 m ρ c main_v7)
      (shapeCast S1x1024 (mulf (F := Ideal) (φ := .f32) (argA m c) (argA m c)) shapeCasts_S1024_S1x1024) := by
    show StableHlo.after hostOps0 (W0 m ρ c) (Proc.devRef .tc main_v7) = _
    after_results
    rfl
  rw [e, shapeCast_a_1a_apply, mulf_apply]

/-- The row of amplitudes. -/
theorem V1_v8_apply (c : Dev nD) (r : Fin 1024) :
    (V1 m ρ c main_v8 : S1x1024.Idx → EReal) (ix2 (0 : Fin 1) r)
      = Ideal.exp (argA m c (ix1 r)) := by
  have e : @Eq (S1x1024.Idx → EReal) (V1 m ρ c main_v8)
      (shapeCast S1x1024 (Host.exp (F := Ideal) (φ := .f32) (argA m c)) shapeCasts_S1024_S1x1024) := by
    show StableHlo.after hostOps0 (W0 m ρ c) (Proc.devRef .tc main_v8) = _
    after_results
    rfl
  rw [e, shapeCast_a_1a_apply]
  rfl

/-! ## At the second region's entry -/

theorem V3_v6 (c : Dev nD) : V3 m ρ c main_v6 = V1 m ρ c main_v6 := by
  show StableHlo.after hostOps1 (W2 m ρ c) (Proc.devRef .tc main_v6) = W1 m ρ c (Proc.devRef .tc main_v6)
  refine (StableHlo.after_of_forall_not_mem (b := Proc.devRef .tc main_v6) _ _ (List.forall_iff_forall_mem.mp (by
          simp only [hostOps1, List.Forall, StableHlo.unary_writes, StableHlo.reshape_writes, Finset.mem_singleton]
          repeat' apply And.intro
          all_goals exact StableHlo.devRef_ne_of_ne (by decide)))).trans ?_
  exact (W2_arr m ρ c 1).trans (((dat0 (V1 m ρ) c).arrAt_in 1 rfl _).trans (A_eq0 (V1 m ρ) c 1))

theorem V3_v7 (c : Dev nD) : V3 m ρ c main_v7 = V1 m ρ c main_v7 := by
  show StableHlo.after hostOps1 (W2 m ρ c) (Proc.devRef .tc main_v7) = W1 m ρ c (Proc.devRef .tc main_v7)
  refine (StableHlo.after_of_forall_not_mem (b := Proc.devRef .tc main_v7) _ _ (List.forall_iff_forall_mem.mp (by
          simp only [hostOps1, List.Forall, StableHlo.unary_writes, StableHlo.reshape_writes, Finset.mem_singleton]
          repeat' apply And.intro
          all_goals exact StableHlo.devRef_ne_of_ne (by decide)))).trans ?_
  exact (W2_arr m ρ c 2).trans (((dat0 (V1 m ρ) c).arrAt_in 2 rfl _).trans (A_eq0 (V1 m ρ) c 2))

theorem V3_v8 (c : Dev nD) : V3 m ρ c main_v8 = V1 m ρ c main_v8 := by
  show StableHlo.after hostOps1 (W2 m ρ c) (Proc.devRef .tc main_v8) = W1 m ρ c (Proc.devRef .tc main_v8)
  refine (StableHlo.after_of_forall_not_mem (b := Proc.devRef .tc main_v8) _ _ (List.forall_iff_forall_mem.mp (by
          simp only [hostOps1, List.Forall, StableHlo.unary_writes, StableHlo.reshape_writes, Finset.mem_singleton]
          repeat' apply And.intro
          all_goals exact StableHlo.devRef_ne_of_ne (by decide)))).trans ?_
  exact (W2_arr m ρ c 3).trans (((dat0 (V1 m ρ) c).arrAt_in 3 rfl _).trans (A_eq0 (V1 m ρ) c 3))

/-- The first region's result, transposed. -/
theorem V3_v11_apply (c : Dev nD) (r o : Fin 1024) :
    (V3 m ρ c main_v11 : S1024x1024.Idx → EReal) (ix2 r o)
      = ((dat0 (V1 m ρ) c).arrAt 4 cfg0.N : S1024x1024.Idx → EReal) (ix2 o r) := by
  have e : @Eq (S1024x1024.Idx → EReal) (V3 m ρ c main_v11)
      (truncf (F := Ideal) (φ := .f32) .bf16
        (transpose S1024x1024 [1, 0] (W2 m ρ c (Proc.devRef .tc main_v9)) transposes_S1024x1024_S1024x1024_1_0)
        bitsLt_bf16_f32) := by
    show StableHlo.after hostOps1 (W2 m ρ c) (Proc.devRef .tc main_v11) = _
    after_results
  have h9 : W2 m ρ c (Proc.devRef .tc main_v9) = (dat0 (V1 m ρ) c).arrAt 4 cfg0.N := W2_arr m ρ c 4
  rw [e, truncf_apply, transpose_ix2_apply, h9]

/-- `x` with its two leading axes merged. -/
theorem V3_v12_apply (c : Dev nD) (b : Fin 4) (s : Fin 2048) (d : Fin 1024) :
    (V3 m ρ c main_v12 : S8192x1024.Idx → EReal) (ix2 (row b s) d)
      = argX m c (ix3 b s d) := by
  have e : @Eq (S8192x1024.Idx → EReal) (V3 m ρ c main_v12)
      (shapeCast S8192x1024 (W2 m ρ c (Proc.devRef .tc main_arg0)) shapeCasts_S4x2048x1024_S8192x1024) := by
    show StableHlo.after hostOps1 (W2 m ρ c) (Proc.devRef .tc main_v12) = _
    after_results
    rfl
  have h0 : W2 m ρ c (Proc.devRef .tc main_arg0) = m ((c : Thread nD τ).loc main_arg0) := by
    refine (W2_of_ne m ρ c main_arg0 (by decide)).trans ?_
    show StableHlo.after hostOps0 (W0 m ρ c) (Proc.devRef .tc main_arg0) = _
    refine (StableHlo.after_of_forall_not_mem (b := Proc.devRef .tc main_arg0) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))).trans ?_
    rfl
  rw [e, h0]
  refine shapeCast_apply _ _ (ix2 (row b s) d) (ix3 b s d) ?_
  rw [Shape.rowMajor_val_three, Shape.rowMajor_val_two]
  show (b.val * 2048 + s.val) * 1024 + d.val = (2048 * b.val + s.val) * 1024 + d.val
  omega

/-! ## At the return -/

/-- The result: the second region's result with its leading axis split. -/
theorem W5_v14_apply (c : Dev nD) (b : Fin 4) (s : Fin 2048) (o : Fin 1024) :
    (W5 m ρ c (Proc.devRef .tc main_v14) : S4x2048x1024.Idx → EReal) (ix3 b s o)
      = ((dat1 (V3 m ρ) c).arrAt 5 cfg1.N : S8192x1024.Idx → EReal) (ix2 (row b s) o) := by
  have e : @Eq (S4x2048x1024.Idx → EReal) (W5 m ρ c (Proc.devRef .tc main_v14))
      (shapeCast S4x2048x1024 (W4 m ρ c (Proc.devRef .tc main_v13)) shapeCasts_S8192x1024_S4x2048x1024) := by
    show StableHlo.after hostOps2 (W4 m ρ c) (Proc.devRef .tc main_v14) = _
    after_results
    rfl
  have h13 : W4 m ρ c (Proc.devRef .tc main_v13) = (dat1 (V3 m ρ) c).arrAt 5 cfg1.N := W4_arr m ρ c 5
  rw [e, h13]
  refine shapeCast_apply _ _ (ix3 b s o) (ix2 (row b s) o) ?_
  rw [Shape.rowMajor_val_three, Shape.rowMajor_val_two]
  show (2048 * b.val + s.val) * 1024 + o.val = (b.val * 2048 + s.val) * 1024 + o.val
  omega

end Cert.Rfs.KHost

end
-- ==== Proof.Spec.lean ====
/-
  Random-feature attention weights, as one function of the four argument arrays over the extended reals.

  For a row `x` of length 1024 and a feature index `r`, with `g r = a r • P r` the r-th projection row scaled by `a r`,
  the feature is
      φ r (x) = (1/32 · exp (a r)) · exp (⟨x, g r⟩ − (1/2 · ⟨x, x⟩) · (a r · a r)).
  The result at (b, s, o) is the inner product over r of the features of row (b, s) of `X` with the features of row `o`
  of `W`. The two literals are kept as the words the programs print: both programs print the same words.
-/
import Idealize.ShloMosaic.Lib.ValueIdx
import Idealize.ShloMosaic.PureOps.Ideal

noncomputable section

namespace Cert.Rfs

open Idealize.ShloMosaic Idealize.ShloMosaic.ValueIdx

/-- One feature of a row `x` against a projection row `g`, with the feature's squared scale `ab2` and its amplitude
    `AB`: `(1/32 · AB) · exp (⟨x, g⟩ − (1/2 · ⟨x, x⟩) · ab2)`. -/
def feat (x g : Fin 1024 → EReal) (ab2 AB : EReal) : EReal :=
  (Ideal.ofBits .f32 0x3D000000#32 * AB)
    * Ideal.exp ((∑ d : Fin 1024, x d * g d) - (Ideal.ofBits .f32 0x3F000000#32 * ∑ d : Fin 1024, x d * x d) * ab2)

/-- The r-th projection row scaled by `a r`. -/
def proj (a : (⟨1, ![1024]⟩ : Shape).Idx → EReal) (P : (⟨2, ![1024, 1024]⟩ : Shape).Idx → EReal) (r : Fin 1024) :
    Fin 1024 → EReal := fun d => a (ix1 r) * P (ix2 r d)

/-- Feature `r` of a row: scale `a r · a r`, amplitude `exp (a r)`. -/
def featOf (a : (⟨1, ![1024]⟩ : Shape).Idx → EReal) (P : (⟨2, ![1024, 1024]⟩ : Shape).Idx → EReal) (row : Fin 1024 → EReal)
    (r : Fin 1024) : EReal :=
  feat row (proj a P r) (a (ix1 r) * a (ix1 r)) (Ideal.exp (a (ix1 r)))

/-- The result at batch `b`, position `s`, output `o`: the features of row (b, s) of `X` against those of row `o` of `W`. -/
def result (X : (⟨3, ![4, 2048, 1024]⟩ : Shape).Idx → EReal) (W : (⟨2, ![1024, 1024]⟩ : Shape).Idx → EReal)
    (a : (⟨1, ![1024]⟩ : Shape).Idx → EReal) (P : (⟨2, ![1024, 1024]⟩ : Shape).Idx → EReal)
    (b : Fin 4) (s : Fin 2048) (o : Fin 1024) : EReal :=
  ∑ r : Fin 1024, featOf a P (fun d => X (ix3 b s d)) r * featOf a P (fun d => W (ix2 o d)) r

/-- The whole result array. -/
def G (X : (⟨3, ![4, 2048, 1024]⟩ : Shape).Idx → EReal) (W : (⟨2, ![1024, 1024]⟩ : Shape).Idx → EReal)
    (a : (⟨1, ![1024]⟩ : Shape).Idx → EReal) (P : (⟨2, ![1024, 1024]⟩ : Shape).Idx → EReal) :
    (⟨3, ![4, 2048, 1024]⟩ : Shape).Idx → EReal :=
  fun i => result X W a P (i 0) (i 1) (i 2)

theorem G_apply (X : (⟨3, ![4, 2048, 1024]⟩ : Shape).Idx → EReal) (W : (⟨2, ![1024, 1024]⟩ : Shape).Idx → EReal)
    (a : (⟨1, ![1024]⟩ : Shape).Idx → EReal) (P : (⟨2, ![1024, 1024]⟩ : Shape).Idx → EReal)
    (b : Fin 4) (s : Fin 2048) (o : Fin 1024) : G X W a P (ix3 b s o) = result X W a P b s o := rfl

end Cert.Rfs

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.KPayload.lean ====
/-
  What the two kernel bodies store, read at an entry over the extended reals.

  The first body, on a block of 512 rows `x0`, the scaled projection matrix `x1` laid out [d, r], the row of squared scales
  `x2` and the row of amplitudes `x3`, stores at (p, q) the feature `Cert.Rfs.feat` of row p against column q: the matrix
  product into the zero accumulator is the inner product ⟨row p, column q⟩, the row sum of squares is ⟨row p, row p⟩, and
  the changes of float format are the identity. The second body, on a block of 1024 rows, computes the same features and
  contracts them with the fifth operand `x4`, laid out [r, o].
-/
import proofs.«120105_j17274358465083_1_alg».proof.Proof.Gen.KernelIdeal.Skeleton
import proofs.«120105_j17274358465083_1_alg».proof.Proof.Spec
import proofs.«120105_j17274358465083_1_alg».proof.Proof.LibPlainMatmul
import proofs.«120105_j17274358465083_1_alg».proof.Proof.LibRowColumn
import Idealize.ShloMosaic.Lib.ValueIdx
import Idealize.ShloMosaic.Lib.ValueLayout
import Idealize.ShloMosaic.Lib.Pipeline.Value
import Idealize.ShloMosaic.PureOps.Ideal.Laws

noncomputable section

namespace Cert.Rfs.KPayload

open Cert.KernelIdeal Cert.KernelIdeal.Gen Idealize.ShloMosaic Idealize.ShloMosaic.ValueIdx

/-- The first body's matrix product at (p, q): the inner product of row p of the left block with column q of the right. -/
theorem matmul0_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) :=
  Cert.PlainMatmul.apply (M := 512) (K := 1024) (N := 1024) none a b p q

/-- The second body's two matrix products at (p, q). -/
theorem matmul1_apply (a : FVec Ideal S1024x1024 .bf16) (b : FVec Ideal S1024x1024 .bf16) (p : Fin 1024) (q : Fin 1024) :
    matmul dot_S1024x1024_S1024x1024_S1024x1024_1_0_0_1_n_n none a b (constant S1024x1024 .f32 0x00000000#32) (ix2 p q)
      = ∑ k : Fin 1024, a (ix2 p k) * b (ix2 k q) :=
  Cert.PlainMatmul.apply (M := 1024) (K := 1024) (N := 1024) none a b p q

/-- The first body's row sum of squares at row p, into the zero word: the sum over the columns. -/
theorem rowSum0 (src : FVec Ideal S512x1024 .f32) (h : S512x1024.Reduces [1] S512) (hφ : FKind.Formats .f32)
    (hacc : (0x00000000#32 : BitVec 32) = 0x00000000#32) (p : Fin 512) :
    multiReduction .add [1] S512 src 0x00000000#32 h hφ hacc (ix1 p) = ∑ k : Fin 1024, src (ix2 p k) :=
  Cert.RowColumn.rowSum_apply (a := 512) (b := 1024) src 0x00000000#32 h hφ hacc p

/-- The second body's row sum of squares at row p. -/
theorem rowSum1 (src : FVec Ideal S1024x1024 .f32) (h : S1024x1024.Reduces [1] S1024) (hφ : FKind.Formats .f32)
    (hacc : (0x00000000#32 : BitVec 32) = 0x00000000#32) (p : Fin 1024) :
    multiReduction .add [1] S1024 src 0x00000000#32 h hφ hacc (ix1 p) = ∑ k : Fin 1024, src (ix2 p k) :=
  Cert.RowColumn.rowSum_apply (a := 1024) (b := 1024) src 0x00000000#32 h hφ hacc p

/-- The exponential of a vector, read at an index. -/
theorem exp_apply {s : Shape} {φ : FTy} (a : FVec Ideal s φ) (i : s.Idx) : exp a i = Ideal.exp (a i) := rfl

/-- The first body's payload at (p, q) is the feature of row p against column q. -/
theorem pay0_apply (x0 : Vec Ideal S512x1024 .f32) (x1 : Vec Ideal S1024x1024 .bf16) (x2 x3 : Vec Ideal S1x1024 .f32)
    (p : Fin 512) (q : Fin 1024) :
    k0_pay1 (F := Ideal) x0 x1 x2 x3 (ix2 p q)
      = Cert.Rfs.feat (fun d => x0 (ix2 p d)) (fun d => x1 (ix2 d q)) (x2 (ix2 (0 : Fin 1) q)) (x3 (ix2 (0 : Fin 1) q)) := by
  unfold k0_pay1
  dsimp only
  simp only [mulf_apply, subf_apply, exp_apply, broadcast_apply, truncf_apply, shapeCast_self, matmul0_apply,
    broadcastTo_1b_ab_apply, Cert.RowColumn.broadcastTo_a1_ab_apply, Cert.RowColumn.shapeCast_a_a1_apply,
    rowSum0]
  rw [rowSum0 (mulf x0 x0) reduces_S512x1024_S512 (.inl rfl) rfl p]
  rfl

/-- The second body's payload at (p, o): the features of row p, contracted over the feature index with column o of
    the fifth operand. -/
theorem pay1_apply (x0 : Vec Ideal S1024x1024 .f32) (x1 : Vec Ideal S1024x1024 .bf16) (x2 x3 : Vec Ideal S1x1024 .f32)
    (x4 : Vec Ideal S1024x1024 .bf16) (p o : Fin 1024) :
    k1_pay1 (F := Ideal) x0 x1 x2 x3 x4 (ix2 p o)
      = ∑ r : Fin 1024, Cert.Rfs.feat (fun d => x0 (ix2 p d)) (fun d => x1 (ix2 d r)) (x2 (ix2 (0 : Fin 1) r))
          (x3 (ix2 (0 : Fin 1) r)) * x4 (ix2 r o) := by
  unfold k1_pay1
  dsimp only
  rw [matmul1_apply]
  refine Finset.sum_congr rfl fun r _ => ?_
  simp only [mulf_apply, subf_apply, exp_apply, broadcast_apply, truncf_apply, shapeCast_self, matmul1_apply,
    broadcastTo_1b_ab_apply, Cert.RowColumn.broadcastTo_a1_ab_apply, Cert.RowColumn.shapeCast_a_a1_apply]
  rw [rowSum1 (mulf x0 x0) reduces_S1024x1024_S1024 (.inl rfl) rfl p]
  rfl

end Cert.Rfs.KPayload

end
-- ==== Proof.KBlocks0.lean ====
/-
  The first region's result array, whole, over the extended reals.

  The region's grid has two points; point t stores rows 512 t … 512 t + 511 of the result. Each stored block is the
  matching block of ONE function of the arrays the region finds: entry (o, r) is the feature of row o of the first
  operand against column r of the second, with the r-th squared scale and amplitude. The two blocks tile the array, so
  after the region the array IS that function.
-/
import proofs.«120105_j17274358465083_1_alg».proof.Proof.Gen.KernelIdeal.Frame
import proofs.«120105_j17274358465083_1_alg».proof.Proof.KPayload
import Idealize.ShloMosaic.Lib.Pipeline.Value

set_option maxRecDepth 16384

noncomputable section

namespace Cert.Rfs.KBlocks0

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The feature matrix of the rows of `A`: entry (o, r) is the feature of row o against column r of `g`. -/
def weights (A g : S1024x1024.Idx → EReal) (ab2 AB : S1x1024.Idx → EReal) : S1024x1024.Idx → EReal :=
  fun i => Cert.Rfs.feat (fun d => A (ix2 (i 0) d)) (fun d => g (ix2 d (i 1))) (ab2 (ix2 (0 : Fin 1) (i 1)))
    (AB (ix2 (0 : Fin 1) (i 1)))

theorem weights_apply (A g : S1024x1024.Idx → EReal) (ab2 AB : S1x1024.Idx → EReal) (o r : Fin 1024) :
    weights A g ab2 AB (ix2 o r)
      = Cert.Rfs.feat (fun d => A (ix2 o d)) (fun d => g (ix2 d r)) (ab2 (ix2 (0 : Fin 1) r)) (AB (ix2 (0 : Fin 1) r)) := rfl

/-- The arrays the region finds, as functions of their indices. -/
abbrev arrA (c : Dev nD) : S1024x1024.Idx → EReal := V c main_arg1
abbrev arrG (c : Dev nD) : S1024x1024.Idx → EReal := V c main_v6
abbrev arrAb2 (c : Dev nD) : S1x1024.Idx → EReal := V c main_v7
abbrev arrAB (c : Dev nD) : S1x1024.Idx → EReal := V c main_v8

theorem hz : (![0, 0] : Fin 2 → Nat) = fun _ => 0 := funext fun a => by fin_cases a <;> rfl

/-- The printed index maps over the grid: the first operand's and the result's blocks move with the point along the
    rows; the three other operands are fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first operand's block at point t is rows 512 t … of its array. -/
theorem blk_A (c : Dev nD) (t : Fin cfg0.N) (p : Fin 512) (d : Fin 1024) (k : S1024x1024.Idx)
    (hk0 : (k 0).val = 512 * t.val + p.val) (hk1 : (k 1).val = d.val) :
    (iblk0 V c 0 t : Vec Ideal S512x1024 .f32) (ix2 p d) = arrA V c k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 512 + 1 * p.val = (k 0).val; rw [e0, hk0]; omega
  | ⟨1, _⟩ => show win0_0.index t 1 * 1024 + 1 * d.val = (k 1).val; rw [e1, hk1]; omega

/-- The second operand's block at every point is its whole array. -/
theorem blk_G (c : Dev nD) (t : Fin cfg0.N) (d r : Fin 1024) :
    (iblk0 V c 1 t : Vec Ideal S1024x1024 .bf16) (ix2 d r) = arrG V c (ix2 d r) := by
  obtain ⟨-, -, e0, e1, -⟩ := idx_facts t
  unfold iblk0
  rw [View.read_apply]
  show V c main_v6 _ = V c main_v6 _
  congr 1
  funext a
  apply Fin.ext
  match a with
  | ⟨0, _⟩ => show win0_1.index t 0 * 1024 + 1 * d.val = d.val; rw [e0]; omega
  | ⟨1, _⟩ => show win0_1.index t 1 * 1024 + 1 * r.val = r.val; rw [e1]; omega

/-- The third operand's block at every point is its whole row. -/
theorem blk_Ab2 (c : Dev nD) (t : Fin cfg0.N) (r : Fin 1024) :
    (iblk0 V c 2 t : Vec Ideal S1x1024 .f32) (ix2 (0 : Fin 1) r) = arrAb2 V c (ix2 (0 : Fin 1) r) := by
  obtain ⟨-, -, -, -, e0, e1, -⟩ := idx_facts t
  unfold iblk0
  rw [View.read_apply]
  show V c main_v7 _ = V c main_v7 _
  congr 1
  funext a
  apply Fin.ext
  match a with
  | ⟨0, _⟩ => show win0_2.index t 0 * 1 + 1 * 0 = 0; rw [e0]
  | ⟨1, _⟩ => show win0_2.index t 1 * 1024 + 1 * r.val = r.val; rw [e1]; omega

/-- The fourth operand's block at every point is its whole row. -/
theorem blk_AB (c : Dev nD) (t : Fin cfg0.N) (r : Fin 1024) :
    (iblk0 V c 3 t : Vec Ideal S1x1024 .f32) (ix2 (0 : Fin 1) r) = arrAB V c (ix2 (0 : Fin 1) r) := by
  obtain ⟨-, -, -, -, -, -, e0, e1, -⟩ := idx_facts t
  unfold iblk0
  rw [View.read_apply]
  show V c main_v8 _ = V c main_v8 _
  congr 1
  funext a
  apply Fin.ext
  match a with
  | ⟨0, _⟩ => show win0_3.index t 0 * 1 + 1 * 0 = 0; rw [e0]
  | ⟨1, _⟩ => show win0_3.index t 1 * 1024 + 1 * r.val = r.val; rw [e1]; omega

/-- What point t writes back is block t of the feature matrix of the arrays the region finds. -/
theorem flushed_eq (c : Dev nD) (t : Fin cfg0.N) :
    (dat0 V c).flushed 4 t
      = ((cfg0.win 4).blk t).view.read (Elt Ideal) (weights (arrA V c) (arrG V c) (arrAb2 V c) (arrAB V c)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz, View.ld_unit_zero (S := S1x1024) hz]
  obtain ⟨-, -, -, -, -, -, -, -, e0, e1⟩ := idx_facts t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (iblk0 V c 2 t) (iblk0 V c 3 t) (ix2 p q)
    = weights (arrA V c) (arrG V c) (arrAb2 V c) (arrAB V c) (((cfg0.win 4).blk t).view.emb (ix2 p q))
  refine (Cert.Rfs.KPayload.pay0_apply (iblk0 V c 0 t) (iblk0 V c 1 t) (iblk0 V c 2 t) (iblk0 V c 3 t) p q).trans ?_
  have hi0 : ((((cfg0.win 4).blk t).view.emb (ix2 p q)) 0).val = 512 * t.val + p.val := by
    show win0_4.index t 0 * 512 + 1 * p.val = _
    rw [e0]; omega
  have hi1 : ((((cfg0.win 4).blk t).view.emb (ix2 p q)) 1).val = q.val := by
    show win0_4.index t 1 * 1024 + 1 * q.val = _
    rw [e1]; omega
  generalize ((cfg0.win 4).blk t).view.emb (ix2 p q) = i at hi0 hi1
  obtain ⟨o, r, rfl⟩ : ∃ (o r : Fin 1024), i = ix2 o r := ⟨i 0, i 1, eq_ix2 i⟩
  obtain rfl : r = q := Fin.ext hi1
  rw [weights_apply]
  have hA : (fun d : Fin 1024 => (iblk0 V c 0 t : Vec Ideal S512x1024 .f32) (ix2 p d)) = fun d => arrA V c (ix2 o d) :=
    funext fun d => blk_A V c t p d (ix2 o d) hi0 rfl
  have hG : (fun d : Fin 1024 => (iblk0 V c 1 t : Vec Ideal S1024x1024 .bf16) (ix2 d r)) = fun d => arrG V c (ix2 d r) :=
    funext fun d => blk_G V c t d r
  exact congr (congr (congr (congrArg Cert.Rfs.feat hA) hG) (blk_Ab2 V c t r)) (blk_AB V c t r)

/-- An index of the result array is in point t's block iff each coordinate is in the block's range on its axis. -/
theorem mem_blk (t : Fin cfg0.N) (i : S1024x1024.Idx) :
    i ∈ ((cfg0.win 4).blk t).view.set
      ↔ ∀ a : Fin 2, win0_4.index t a * S512x1024.size a ≤ (i a).val
          ∧ (i a).val < win0_4.index t a * S512x1024.size a + S512x1024.size a := by
  show i ∈ ((View.whole main_v9).slice (win0_4.rect t)).set ↔ _
  rw [View.set_slice_whole, Rect.mem_set_unit]
  exact Iff.rfl

/-- Every index of the result array is in the block of the point its row selects. -/
theorem cover (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  have hN : cfg0.N = 2 := N_0
  let t : Fin cfg0.N := ⟨(i 0).val / 512, by rw [hN]; omega⟩
  obtain ⟨-, -, -, -, -, -, -, -, e0, e1⟩ := idx_facts t
  have ht : t.val = (i 0).val / 512 := rfl
  refine ⟨t, flush0_4 t, ?_⟩
  rw [mem_blk]
  intro a
  match a with
  | ⟨0, _⟩ =>
    show win0_4.index t 0 * 512 ≤ (i 0).val ∧ (i 0).val < win0_4.index t 0 * 512 + 512
    rw [e0, ht]; omega
  | ⟨1, _⟩ =>
    show win0_4.index t 1 * 1024 ≤ (i 1).val ∧ (i 1).val < win0_4.index t 1 * 1024 + 1024
    rw [e1]; omega

/-- After the region its result array is the feature matrix of the arrays the region found. -/
theorem final (c : Dev nD) :
    (dat0 V c).arrAt 4 cfg0.N = weights (arrA V c) (arrG V c) (arrAb2 V c) (arrAB V c) :=
  (dat0 V c).arrAt_eq_of_cover 4 (weights (arrA V c) (arrG V c) (arrAb2 V c) (arrAB V c))
    (fun t _ => flushed_eq V c t) cover

end Cert.Rfs.KBlocks0

end
-- ==== Proof.KBlocks1.lean ====
/-
  The second region's result array, whole, over the extended reals.

  The region's grid has eight points; point t stores rows 1024 t … 1024 t + 1023 of the result. Each stored block is the
  matching block of ONE function of the arrays the region finds: entry (n, o) is the sum over the feature index r of the
  feature of row n of the first operand (against column r of the second, with the r-th squared scale and amplitude)
  times entry (r, o) of the fifth operand. The eight blocks tile the array, so after the region the array IS that
  function.
-/
import proofs.«120105_j17274358465083_1_alg».proof.Proof.Gen.KernelIdeal.Frame
import proofs.«120105_j17274358465083_1_alg».proof.Proof.KPayload
import Idealize.ShloMosaic.Lib.Pipeline.Value

set_option maxRecDepth 16384

noncomputable section

namespace Cert.Rfs.KBlocks1

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The features of the rows of `X`, contracted over the feature index with `wT`: entry (n, o) is the sum over r of the
    feature of row n against column r of `g`, times `wT (r, o)`. -/
def outRows (X : S8192x1024.Idx → EReal) (g : S1024x1024.Idx → EReal) (ab2 AB : S1x1024.Idx → EReal)
    (wT : S1024x1024.Idx → EReal) : S8192x1024.Idx → EReal :=
  fun i => ∑ r : Fin 1024, Cert.Rfs.feat (fun d => X (ix2 (i 0) d)) (fun d => g (ix2 d r)) (ab2 (ix2 (0 : Fin 1) r))
    (AB (ix2 (0 : Fin 1) r)) * wT (ix2 r (i 1))

theorem outRows_apply (X : S8192x1024.Idx → EReal) (g : S1024x1024.Idx → EReal) (ab2 AB : S1x1024.Idx → EReal)
    (wT : S1024x1024.Idx → EReal) (n : Fin 8192) (o : Fin 1024) :
    outRows X g ab2 AB wT (ix2 n o)
      = ∑ r : Fin 1024, Cert.Rfs.feat (fun d => X (ix2 n d)) (fun d => g (ix2 d r)) (ab2 (ix2 (0 : Fin 1) r))
          (AB (ix2 (0 : Fin 1) r)) * wT (ix2 r o) := rfl

/-- The arrays the region finds, as functions of their indices. -/
abbrev arrX (c : Dev nD) : S8192x1024.Idx → EReal := V c main_v12
abbrev arrG (c : Dev nD) : S1024x1024.Idx → EReal := V c main_v6
abbrev arrAb2 (c : Dev nD) : S1x1024.Idx → EReal := V c main_v7
abbrev arrAB (c : Dev nD) : S1x1024.Idx → EReal := V c main_v8
abbrev arrWT (c : Dev nD) : S1024x1024.Idx → EReal := V c main_v11

theorem hz : (![0, 0] : Fin 2 → Nat) = fun _ => 0 := funext fun a => by fin_cases a <;> rfl

/-- The printed index maps over the grid: the first operand's and the result's blocks move with the point along the
    rows; the four other operands are fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first operand's block at point t is rows 1024 t … of its array. -/
theorem blk_X (c : Dev nD) (t : Fin cfg1.N) (p : Fin 1024) (d : Fin 1024) (k : S8192x1024.Idx)
    (hk0 : (k 0).val = 1024 * t.val + p.val) (hk1 : (k 1).val = d.val) :
    (iblk1 V c 0 t : Vec Ideal S1024x1024 .f32) (ix2 p d) = arrX V c k := by
  obtain ⟨e0, e1, -⟩ := idx_facts t
  unfold iblk1
  rw [View.read_apply]
  show V c main_v12 _ = V c main_v12 _
  congr 1
  funext a
  apply Fin.ext
  match a with
  | ⟨0, _⟩ => show win1_0.index t 0 * 1024 + 1 * p.val = (k 0).val; rw [e0, hk0]; omega
  | ⟨1, _⟩ => show win1_0.index t 1 * 1024 + 1 * d.val = (k 1).val; rw [e1, hk1]; omega

/-- The second operand's block at every point is its whole array. -/
theorem blk_G (c : Dev nD) (t : Fin cfg1.N) (d r : Fin 1024) :
    (iblk1 V c 1 t : Vec Ideal S1024x1024 .bf16) (ix2 d r) = arrG V c (ix2 d r) := by
  obtain ⟨-, -, e0, e1, -⟩ := idx_facts t
  unfold iblk1
  rw [View.read_apply]
  show V c main_v6 _ = V c main_v6 _
  congr 1
  funext a
  apply Fin.ext
  match a with
  | ⟨0, _⟩ => show win1_1.index t 0 * 1024 + 1 * d.val = d.val; rw [e0]; omega
  | ⟨1, _⟩ => show win1_1.index t 1 * 1024 + 1 * r.val = r.val; rw [e1]; omega

/-- The third operand's block at every point is its whole row. -/
theorem blk_Ab2 (c : Dev nD) (t : Fin cfg1.N) (r : Fin 1024) :
    (iblk1 V c 2 t : Vec Ideal S1x1024 .f32) (ix2 (0 : Fin 1) r) = arrAb2 V c (ix2 (0 : Fin 1) r) := by
  obtain ⟨-, -, -, -, e0, e1, -⟩ := idx_facts t
  unfold iblk1
  rw [View.read_apply]
  show V c main_v7 _ = V c main_v7 _
  congr 1
  funext a
  apply Fin.ext
  match a with
  | ⟨0, _⟩ => show win1_2.index t 0 * 1 + 1 * 0 = 0; rw [e0]
  | ⟨1, _⟩ => show win1_2.index t 1 * 1024 + 1 * r.val = r.val; rw [e1]; omega

/-- The fourth operand's block at every point is its whole row. -/
theorem blk_AB (c : Dev nD) (t : Fin cfg1.N) (r : Fin 1024) :
    (iblk1 V c 3 t : Vec Ideal S1x1024 .f32) (ix2 (0 : Fin 1) r) = arrAB V c (ix2 (0 : Fin 1) r) := by
  obtain ⟨-, -, -, -, -, -, e0, e1, -⟩ := idx_facts t
  unfold iblk1
  rw [View.read_apply]
  show V c main_v8 _ = V c main_v8 _
  congr 1
  funext a
  apply Fin.ext
  match a with
  | ⟨0, _⟩ => show win1_3.index t 0 * 1 + 1 * 0 = 0; rw [e0]
  | ⟨1, _⟩ => show win1_3.index t 1 * 1024 + 1 * r.val = r.val; rw [e1]; omega

/-- The fifth operand's block at every point is its whole array. -/
theorem blk_WT (c : Dev nD) (t : Fin cfg1.N) (r o : Fin 1024) :
    (iblk1 V c 4 t : Vec Ideal S1024x1024 .bf16) (ix2 r o) = arrWT V c (ix2 r o) := by
  obtain ⟨-, -, -, -, -, -, -, -, e0, e1, -⟩ := idx_facts t
  unfold iblk1
  rw [View.read_apply]
  show V c main_v11 _ = V c main_v11 _
  congr 1
  funext a
  apply Fin.ext
  match a with
  | ⟨0, _⟩ => show win1_4.index t 0 * 1024 + 1 * r.val = r.val; rw [e0]; omega
  | ⟨1, _⟩ => show win1_4.index t 1 * 1024 + 1 * o.val = o.val; rw [e1]; omega

/-- What point t writes back is block t of the contracted features of the arrays the region finds. -/
theorem flushed_eq (c : Dev nD) (t : Fin cfg1.N) :
    (dat1 V c).flushed 5 t
      = ((cfg1.win 5).blk t).view.read (Elt Ideal)
          (outRows (arrX V c) (arrG V c) (arrAb2 V c) (arrAB V c) (arrWT V c)) := by
  show (cfg1.win 5).cut (grid1.coords t) ((dat1 V c).after 5 t) = _
  rw [after1_5]
  unfold out1_5
  rw [View.canon_unit_zero hz]
  simp only [View.ld_unit_zero (S := S1024x1024) hz, View.ld_unit_zero (S := S1x1024) hz]
  obtain ⟨-, -, -, -, -, -, -, -, -, -, e0, e1⟩ := idx_facts t
  funext j
  obtain ⟨p, q, rfl⟩ : ∃ (p : Fin 1024) (q : Fin 1024), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = outRows (arrX V c) (arrG V c) (arrAb2 V c) (arrAB V c) (arrWT V c) (((cfg1.win 5).blk t).view.emb (ix2 p q))
  refine (Cert.Rfs.KPayload.pay1_apply (iblk1 V c 0 t) (iblk1 V c 1 t) (iblk1 V c 2 t) (iblk1 V c 3 t) (iblk1 V c 4 t)
    p q).trans ?_
  have hi0 : ((((cfg1.win 5).blk t).view.emb (ix2 p q)) 0).val = 1024 * t.val + p.val := by
    show win1_5.index t 0 * 1024 + 1 * p.val = _
    rw [e0]; omega
  have hi1 : ((((cfg1.win 5).blk t).view.emb (ix2 p q)) 1).val = q.val := by
    show win1_5.index t 1 * 1024 + 1 * q.val = _
    rw [e1]; omega
  generalize ((cfg1.win 5).blk t).view.emb (ix2 p q) = i at hi0 hi1
  obtain ⟨n, o, rfl⟩ : ∃ (n : Fin 8192) (o : Fin 1024), i = ix2 n o := ⟨i 0, i 1, eq_ix2 i⟩
  obtain rfl : o = q := Fin.ext hi1
  rw [outRows_apply]
  have hX : (fun d : Fin 1024 => (iblk1 V c 0 t : Vec Ideal S1024x1024 .f32) (ix2 p d)) = fun d => arrX V c (ix2 n d) :=
    funext fun d => blk_X V c t p d (ix2 n d) hi0 rfl
  refine Finset.sum_congr rfl fun r _ => ?_
  have hG : (fun d : Fin 1024 => (iblk1 V c 1 t : Vec Ideal S1024x1024 .bf16) (ix2 d r)) = fun d => arrG V c (ix2 d r) :=
    funext fun d => blk_G V c t d r
  exact congr (congrArg HMul.hMul
    (congr (congr (congr (congrArg Cert.Rfs.feat hX) hG) (blk_Ab2 V c t r)) (blk_AB V c t r))) (blk_WT V c t r o)

/-- An index of the result array is in point t's block iff each coordinate is in the block's range on its axis. -/
theorem mem_blk (t : Fin cfg1.N) (i : S8192x1024.Idx) :
    i ∈ ((cfg1.win 5).blk t).view.set
      ↔ ∀ a : Fin 2, win1_5.index t a * S1024x1024.size a ≤ (i a).val
          ∧ (i a).val < win1_5.index t a * S1024x1024.size a + S1024x1024.size a := by
  show i ∈ ((View.whole main_v13).slice (win1_5.rect t)).set ↔ _
  rw [View.set_slice_whole, Rect.mem_set_unit]
  exact Iff.rfl

/-- Every index of the result array is in the block of the point its row selects. -/
theorem cover (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 8 := N_1
  let t : Fin cfg1.N := ⟨(i 0).val / 1024, by rw [hN]; omega⟩
  obtain ⟨-, -, -, -, -, -, -, -, -, -, e0, e1⟩ := idx_facts t
  have ht : t.val = (i 0).val / 1024 := rfl
  refine ⟨t, flush1_5 t, ?_⟩
  rw [mem_blk]
  intro a
  match a with
  | ⟨0, _⟩ =>
    show win1_5.index t 0 * 1024 ≤ (i 0).val ∧ (i 0).val < win1_5.index t 0 * 1024 + 1024
    rw [e0, ht]; omega
  | ⟨1, _⟩ =>
    show win1_5.index t 1 * 1024 ≤ (i 1).val ∧ (i 1).val < win1_5.index t 1 * 1024 + 1024
    rw [e1]; omega

/-- After the region its result array is the contracted features of the arrays the region found. -/
theorem final (c : Dev nD) :
    (dat1 V c).arrAt 5 cfg1.N = outRows (arrX V c) (arrG V c) (arrAb2 V c) (arrAB V c) (arrWT V c) :=
  (dat1 V c).arrAt_eq_of_cover 5 (outRows (arrX V c) (arrG V c) (arrAb2 V c) (arrAB V c) (arrWT V c))
    (fun t _ => flushed_eq V c t) cover

end Cert.Rfs.KBlocks1

end
-- ==== Proof.KValue.lean ====
/-
  The kernel program's result is the specification `Cert.Rfs.G` of the four argument arrays.

  Read backwards from the return: the result is the second region's array with its leading axis split; that array is the
  features of the rows of `x` (merged to 8192 rows) contracted with the transposed first region's array; the first
  region's array is the feature matrix of the rows of `input_weights`; and both regions find the same scaled projection
  matrix, squared scales and amplitudes, which the host operations before the first region compute from `xis` and
  `proj_matrix`. Entry (b, s, o) is therefore the sum over r of the feature of row (b, s) of `x` times the feature of row o
  of `input_weights`.
-/
import proofs.«120105_j17274358465083_1_alg».proof.Proof.KRun
import proofs.«120105_j17274358465083_1_alg».proof.Proof.KHost
import proofs.«120105_j17274358465083_1_alg».proof.Proof.KBlocks0
import proofs.«120105_j17274358465083_1_alg».proof.Proof.KBlocks1
import proofs.«120105_j17274358465083_1_alg».proof.Proof.Spec

set_option maxRecDepth 16384

noncomputable section

namespace Cert.Rfs.KValue

open Cert.KernelIdeal Cert.KernelIdeal.Gen Idealize.ShloMosaic Idealize.ShloMosaic.TcCoe Idealize.SL.Sem
  Idealize.ShloMosaic.ValueIdx Cert.Rfs.KHost

variable (m : (ℓ : Loc nD τ sig) → Buf (Elt Ideal) ℓ) (ρ : Dev nD → PrngReg)

/-- Column r of the scaled projection matrix both regions find is the r-th scaled projection row. -/
theorem col_eq (c : Dev nD) (r : Fin 1024) :
    (fun d : Fin 1024 => (V1 m ρ c main_v6 : S1024x1024.Idx → EReal) (ix2 d r)) = Cert.Rfs.proj (argA m c) (argP m c) r :=
  funext fun d => V1_v6_apply m ρ c d r

/-- Entry (o, r) of the first region's array: feature r of row o of `input_weights`. -/
theorem weights_at (c : Dev nD) (o r : Fin 1024) :
    ((dat0 (V1 m ρ) c).arrAt 4 cfg0.N : S1024x1024.Idx → EReal) (ix2 o r)
      = Cert.Rfs.featOf (argA m c) (argP m c) (fun d => argW m c (ix2 o d)) r := by
  rw [Cert.Rfs.KBlocks0.final (V1 m ρ) c, Cert.Rfs.KBlocks0.weights_apply]
  show Cert.Rfs.feat (fun d => (V1 m ρ c main_arg1 : S1024x1024.Idx → EReal) (ix2 o d))
      (fun d => (V1 m ρ c main_v6 : S1024x1024.Idx → EReal) (ix2 d r))
      ((V1 m ρ c main_v7 : S1x1024.Idx → EReal) (ix2 (0 : Fin 1) r)) ((V1 m ρ c main_v8 : S1x1024.Idx → EReal) (ix2 (0 : Fin 1) r)) = _
  rw [V1_arg1, col_eq, V1_v7_apply, V1_v8_apply]
  rfl

/-- The result buffer at the return is the specification of the launch contents of the arguments. -/
theorem result_eq (c : Dev nD) :
    @Eq (S4x2048x1024.Idx → EReal) (W5 m ρ c (Proc.devRef .tc main_v14))
      (Cert.Rfs.G (argX m c) (argW m c) (argA m c) (argP m c)) := by
  funext i
  obtain ⟨b, s, o, rfl⟩ : ∃ (b : Fin 4) (s : Fin 2048) (o : Fin 1024), i = ix3 b s o := ⟨i 0, i 1, i 2, eq_ix3 i⟩
  rw [W5_v14_apply, Cert.Rfs.KBlocks1.final (V3 m ρ) c, Cert.Rfs.KBlocks1.outRows_apply, Cert.Rfs.G_apply]
  unfold Cert.Rfs.result
  show @Eq EReal _ _
  refine Finset.sum_congr rfl fun r _ => ?_
  show Cert.Rfs.feat (fun d => (V3 m ρ c main_v12 : S8192x1024.Idx → EReal) (ix2 (row b s) d))
      (fun d => (V3 m ρ c main_v6 : S1024x1024.Idx → EReal) (ix2 d r))
      ((V3 m ρ c main_v7 : S1x1024.Idx → EReal) (ix2 (0 : Fin 1) r)) ((V3 m ρ c main_v8 : S1x1024.Idx → EReal) (ix2 (0 : Fin 1) r))
      * (V3 m ρ c main_v11 : S1024x1024.Idx → EReal) (ix2 r o) = _
  rw [V3_v6, V3_v7, V3_v8, col_eq, V1_v7_apply, V1_v8_apply, V3_v11_apply, weights_at]
  have hX : (fun d : Fin 1024 => (V3 m ρ c main_v12 : S8192x1024.Idx → EReal) (ix2 (row b s) d))
      = fun d => argX m c (ix3 b s d) := funext fun d => V3_v12_apply m ρ c b s d
  rw [hX]
  rfl

/-- The kernel program's run, read: the result array at the specification of the arguments, the arguments unchanged. -/
theorem run : θ_run defs (onTc (τ := τ) (main (F := Ideal))) ⟨m, fun _ => 0, ρ⟩ fun r => ∀ c : Dev nD,
      r.2.mem ((c.tc : Thread nD τ).loc main_v14)
          = Cert.Rfs.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m ρ c), (h c).2⟩)
    (Cert.Rfs.KRun.run_value (F := Ideal) m ρ)

end Cert.Rfs.KValue

end
-- ==== Proof.RefValue.lean ====
/-
  The reference program's result, read at an index over the extended reals, is the specification `Cert.Rfs.G` of the four
  argument arrays: its last `dot_general` contracts the feature axis of the features of `x` (stage 42) with the features of
  `input_weights` (stage 21), and each feature stage is `Cert.Rfs.feat` of a row, the scaled projection row, the squared
  scale and the amplitude.
-/
import proofs.«120105_j17274358465083_1_alg».proof.Proof.Gen.ReferenceIdeal.Read
import proofs.«120105_j17274358465083_1_alg».proof.Proof.Gen.ReferenceIdeal.Run
import proofs.«120105_j17274358465083_1_alg».proof.Proof.Spec

noncomputable section

namespace Cert.Rfs.RefValue

open Cert.ReferenceIdeal Cert.ReferenceIdeal.Gen Cert.ReferenceIdeal.Read Idealize.ShloMosaic Idealize.ShloMosaic.TcCoe
  Idealize.SL.Sem Idealize.ShloMosaic.ValueIdx

/-! ### The layout steps' index functions at coordinates

Each layout step of the reference reads its operand at an index computed from the result's index; at an index given by
its coordinates these are again indices given by coordinates. -/

section Indices
variable (b : Fin 4) (s : Fin 2048) (o r d : Fin 1024)

theorem lidx43 : lidx_main_v43 (ix3 b s o) r = ix3 b s r :=
  funext fun a => Fin.ext (by match a with | ⟨0, _⟩ => rfl | ⟨1, _⟩ => rfl | ⟨2, _⟩ => rfl)
theorem ridx43 : ridx_main_v43 (ix3 b s o) r = ix2 o r :=
  funext fun a => Fin.ext (by match a with | ⟨0, _⟩ => rfl | ⟨1, _⟩ => rfl)

-- the features of a row of the first argument (stages 22 to 42)
theorem lidx25 : lidx_main_v25 (ix3 b s r) d = ix3 b s d :=
  funext fun a => Fin.ext (by match a with | ⟨0, _⟩ => rfl | ⟨1, _⟩ => rfl | ⟨2, _⟩ => rfl)
theorem ridx25 : ridx_main_v25 (ix3 b s r) d = ix2 r d :=
  funext fun a => Fin.ext (by match a with | ⟨0, _⟩ => rfl | ⟨1, _⟩ => rfl)
theorem idx22_23 : idx_main_v22 (idx_main_v23 (ix2 r d)) = ix1 r :=
  funext fun a => Fin.ext (by match a with | ⟨0, _⟩ => rfl)
theorem idx27 : idx_main_v27 (ix2 b s) d = ix3 b s d :=
  funext fun a => Fin.ext (by match a with | ⟨0, _⟩ => rfl | ⟨1, _⟩ => rfl | ⟨2, _⟩ => rfl)
theorem idx30_33 : idx_main_v30 (idx_main_v33 (ix3 b s r)) = ix2 b s :=
  funext fun a => Fin.ext (by match a with | ⟨0, _⟩ => rfl | ⟨1, _⟩ => rfl)
theorem idx32_34 : idx_main_v32 (idx_main_v34 (ix3 b s r)) = ix1 r :=
  funext fun a => Fin.ext (by match a with | ⟨0, _⟩ => rfl)
theorem idx40_41 : idx_main_v40 (idx_main_v41 (ix3 b s r)) = ix1 r :=
  funext fun a => Fin.ext (by match a with | ⟨0, _⟩ => rfl)

-- the features of a row of the second argument (stages 1 to 21)
theorem lidx4 : lidx_main_v4 (ix2 o r) d = ix2 o d :=
  funext fun a => Fin.ext (by match a with | ⟨0, _⟩ => rfl | ⟨1, _⟩ => rfl)
theorem ridx4 : ridx_main_v4 (ix2 o r) d = ix2 r d :=
  funext fun a => Fin.ext (by match a with | ⟨0, _⟩ => rfl | ⟨1, _⟩ => rfl)
theorem idx1_2 : idx_main_v1 (idx_main_v2 (ix2 r d)) = ix1 r :=
  funext fun a => Fin.ext (by match a with | ⟨0, _⟩ => rfl)
theorem idx6 : idx_main_v6 (ix1 o) d = ix2 o d :=
  funext fun a => Fin.ext (by match a with | ⟨0, _⟩ => rfl | ⟨1, _⟩ => rfl)
theorem idx9_12 : idx_main_v9 (idx_main_v12 (ix2 o r)) = ix1 o :=
  funext fun a => Fin.ext (by match a with | ⟨0, _⟩ => rfl)
theorem idx11_13 : idx_main_v11 (idx_main_v13 (ix2 o r)) = ix1 r :=
  funext fun a => Fin.ext (by match a with | ⟨0, _⟩ => rfl)
theorem idx19_20 : idx_main_v19 (idx_main_v20 (ix2 o r)) = ix1 r :=
  funext fun a => Fin.ext (by match a with | ⟨0, _⟩ => rfl)

end Indices

/-! ### The features of a row of the first argument: stages 22 to 42 at an index -/

section FirstArgument
variable (x0 : (⟨S4x2048x1024, .f32⟩ : BufTy).Contents (Elt Ideal)) (x2 : (⟨S1024, .f32⟩ : BufTy).Contents (Elt Ideal))
  (x3 : (⟨S1024x1024, .f32⟩ : BufTy).Contents (Elt Ideal)) (b : Fin 4) (s : Fin 2048) (r : Fin 1024)

/-- Stage 25: the inner product of row (b, s) with the r-th scaled projection row. -/
theorem v25_at : val_main_v25 (F := Ideal) x0 x2 x3 (ix3 b s r)
    = ∑ d : Fin 1024, x0 (ix3 b s d) * (x2 (ix1 r) * x3 (ix2 r d)) := by
  rw [val_main_v25_apply]
  refine Finset.sum_congr rfl fun d _ => ?_
  rw [lidx25, ridx25, val_main_v24_apply, val_main_v23_apply, val_main_v22_apply, idx22_23, Ideal.mulf_def]

/-- Stage 27: the squared norm of row (b, s); the sum starts from the zero word, which is 0. -/
theorem v27_at : val_main_v27 (F := Ideal) x0 (ix2 b s) = ∑ d : Fin 1024, x0 (ix3 b s d) * x0 (ix3 b s d) := by
  rw [val_main_v27_apply, val_main_cst_2_apply, Ideal.ofBits_def, Ideal.ofBits_zero_f32, zero_add]
  refine Finset.sum_congr rfl fun d _ => ?_
  rw [val_main_v26_apply, idx27, Ideal.mulf_def]

/-- Stage 35: half the squared norm of the row, times the squared scale. -/
theorem v35_at : val_main_v35 (F := Ideal) x0 x2 (ix3 b s r)
    = (Ideal.ofBits .f32 0x3F000000#32 * ∑ d : Fin 1024, x0 (ix3 b s d) * x0 (ix3 b s d))
        * (x2 (ix1 r) * x2 (ix1 r)) := by
  rw [val_main_v35_apply, val_main_v33_apply, val_main_v30_apply, idx30_33, val_main_v29_apply, val_main_v28_apply,
    val_main_cst_3_apply, v27_at, val_main_v34_apply, val_main_v32_apply, idx32_34, val_main_v31_apply]
  simp only [Ideal.mulf_def, Ideal.ofBits_def]

/-- Stage 41: the amplitude, 1/32 times the exponential of the scale. -/
theorem v41_at : val_main_v41 (F := Ideal) x2 (ix3 b s r) = Ideal.ofBits .f32 0x3D000000#32 * Ideal.exp (x2 (ix1 r)) := by
  rw [val_main_v41_apply, val_main_v40_apply, idx40_41, val_main_v37_apply, val_main_v36_apply, val_main_cst_4_apply,
    val_main_v0_apply]
  simp only [Ideal.mulf_def, Ideal.ofBits_def, Ideal.hostUnary_exp_def]

/-- Stage 42 is the feature of row (b, s) of the first argument. -/
theorem v42_at : val_main_v42 (F := Ideal) x0 x2 x3 (ix3 b s r) = Cert.Rfs.featOf x2 x3 (fun d => x0 (ix3 b s d)) r := by
  rw [val_main_v42_apply, v41_at, val_main_v39_apply, val_main_v38_apply, v25_at, v35_at]
  simp only [Ideal.mulf_def, Ideal.subf_def, Ideal.hostUnary_exp_def]
  rfl

end FirstArgument

/-! ### The features of a row of the second argument: stages 1 to 21 at an index -/

section SecondArgument
variable (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (o r : Fin 1024)

/-- Stage 4: the inner product of row o with the r-th scaled projection row. -/
theorem v4_at : val_main_v4 (F := Ideal) x1 x2 x3 (ix2 o r)
    = ∑ d : Fin 1024, x1 (ix2 o d) * (x2 (ix1 r) * x3 (ix2 r d)) := by
  rw [val_main_v4_apply]
  refine Finset.sum_congr rfl fun d _ => ?_
  rw [lidx4, ridx4, val_main_v3_apply, val_main_v2_apply, val_main_v1_apply, idx1_2, Ideal.mulf_def]

/-- Stage 6: the squared norm of row o; the sum starts from the zero word, which is 0. -/
theorem v6_at : val_main_v6 (F := Ideal) x1 (ix1 o) = ∑ d : Fin 1024, x1 (ix2 o d) * x1 (ix2 o d) := by
  rw [val_main_v6_apply, val_main_cst_apply, Ideal.ofBits_def, Ideal.ofBits_zero_f32, zero_add]
  refine Finset.sum_congr rfl fun d _ => ?_
  rw [val_main_v5_apply, idx6, Ideal.mulf_def]

/-- Stage 14: half the squared norm of the row, times the squared scale. -/
theorem v14_at : val_main_v14 (F := Ideal) x1 x2 (ix2 o r)
    = (Ideal.ofBits .f32 0x3F000000#32 * ∑ d : Fin 1024, x1 (ix2 o d) * x1 (ix2 o d)) * (x2 (ix1 r) * x2 (ix1 r)) := by
  rw [val_main_v14_apply, val_main_v12_apply, val_main_v9_apply, idx9_12, val_main_v8_apply, val_main_v7_apply,
    val_main_cst_0_apply, v6_at, val_main_v13_apply, val_main_v11_apply, idx11_13, val_main_v10_apply]
  simp only [Ideal.mulf_def, Ideal.ofBits_def]

/-- Stage 20: the amplitude, 1/32 times the exponential of the scale. -/
theorem v20_at : val_main_v20 (F := Ideal) x2 (ix2 o r) = Ideal.ofBits .f32 0x3D000000#32 * Ideal.exp (x2 (ix1 r)) := by
  rw [val_main_v20_apply, val_main_v19_apply, idx19_20, val_main_v16_apply, val_main_v15_apply, val_main_cst_1_apply,
    val_main_v0_apply]
  simp only [Ideal.mulf_def, Ideal.ofBits_def, Ideal.hostUnary_exp_def]

/-- Stage 21 is the feature of row o of the second argument. -/
theorem v21_at : val_main_v21 (F := Ideal) x1 x2 x3 (ix2 o r) = Cert.Rfs.featOf x2 x3 (fun d => x1 (ix2 o d)) r := by
  rw [val_main_v21_apply, v20_at, val_main_v18_apply, val_main_v17_apply, v4_at, v14_at]
  simp only [Ideal.mulf_def, Ideal.subf_def, Ideal.hostUnary_exp_def]
  rfl

end SecondArgument

/-- The reference's last stage is the specification, index by index. -/
theorem result_eq (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal)) :
    val_main_v43 (F := Ideal) x0 x1 x2 x3 = Cert.Rfs.G x0 x1 x2 x3 := by
  funext i
  obtain ⟨b, s, o, rfl⟩ : ∃ (b : Fin 4) (s : Fin 2048) (o : Fin 1024), i = ix3 b s o := ⟨i 0, i 1, i 2, eq_ix3 i⟩
  rw [Cert.Rfs.G_apply]
  unfold Cert.Rfs.result
  rw [val_main_v43_apply]
  refine Finset.sum_congr rfl fun r _ => ?_
  rw [lidx43, ridx43, v42_at, v21_at]

/-- The reference's run, read: the result array at the specification of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
          = Cert.Rfs.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v43_eq _ _ _ _).trans (result_eq _ _ _ _)), (h c).2⟩)
    (Cert.ReferenceIdeal.Value.run (F := Ideal) m ρ)

end Cert.Rfs.RefValue

end
-- ==== Proof.lean ====
/-
  The certificate of a random-feature attention kernel against its jnp reference, over the extended reals.

  Both programs compute, from `x` [4, 2048, 1024], `input_weights` [1024, 1024], `xis` [1024] and `proj_matrix`
  [1024, 1024], the array whose entry (b, s, o) is the sum over the 1024 features r of φ_r (x[b, s, :]) · φ_r (input_weights[o, :]),
  with φ_r (v) = (1/32 · exp (xis r)) · exp (⟨v, xis r · proj_matrix[r, :]⟩ − (1/2 · ⟨v, v⟩) · (xis r · xis r))
  (`Cert.Rfs.G`, Proof/Spec.lean). The reference does it with whole-array host operations (Proof/RefValue.lean reads them
  at an index). The kernel program does it in two pipelined regions between host operations: the first computes the
  feature matrix of `input_weights` in two row blocks, the second the features of `x` in eight row blocks and contracts each
  with the transposed feature matrix (Proof/KPayload.lean: what a block stores; Proof/KBlocks0.lean, Proof/KBlocks1.lean:
  the blocks tile the arrays; Proof/KHost.lean: the host operations around the regions; Proof/KRun.lean: the run with the
  result named; Proof/KValue.lean: the result is the specification). The two sides apply the same operations in the
  same order to the same entries, so no law of the extended reals beyond 0 + s = s is used, and the precondition (all
  inputs finite) is never opened. Changes of float format are the identity over the extended reals, so the
  idealization rewrote nothing and its claim is trivial.
-/
import proofs.«120105_j17274358465083_1_alg».proof.Defs
import proofs.«120105_j17274358465083_1_alg».proof.Proof.Gen.Kernel
import proofs.«120105_j17274358465083_1_alg».proof.Proof.Gen.Kernel.Frame
import proofs.«120105_j17274358465083_1_alg».proof.Proof.Gen.KernelIdeal
import proofs.«120105_j17274358465083_1_alg».proof.Proof.Gen.KernelIdeal.Frame
import proofs.«120105_j17274358465083_1_alg».proof.Proof.Gen.ReferenceIdeal
import proofs.«120105_j17274358465083_1_alg».proof.Proof.Gen.ReferenceIdeal.Run
import proofs.«120105_j17274358465083_1_alg».proof.Proof.Gen.Pre_finite_inputs
import proofs.«120105_j17274358465083_1_alg».proof.Proof.KValue
import proofs.«120105_j17274358465083_1_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with their result array at the specification of their own arguments; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Rfs.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Rfs.KValue.run m ρ, ?_⟩
  refine (θ_run Cert.ReferenceIdeal.defs _ _).mono (fun _ h c => ⟨(h c).1.trans ?_, (h c).2⟩)
    (Cert.Rfs.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
